-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S5000x64 : Shape := ⟨2, ![5000, 64]⟩
abbrev S1x64 : Shape := ⟨2, ![1, 64]⟩

abbrev nBuf : Space → Nat
  | .hbm => 24
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S_, .f32⟩
  | .hbm, ⟨20, _⟩ => ⟨S100000x64, .f32⟩
  | .hbm, ⟨21, _⟩ => ⟨S1250000x1, .i32⟩
  | .hbm, ⟨22, _⟩ => ⟨S100000x64, .f32⟩
  | .hbm, ⟨23, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .i32⟩
  | .hbm, ⟨11, _⟩ => ⟨S1250000, .i32⟩
  | .hbm, ⟨12, _⟩ => ⟨S1250000, .i1⟩
  | .hbm, ⟨13, _⟩ => ⟨S_, .i32⟩
  | .hbm, ⟨14, _⟩ => ⟨S1250000, .i32⟩
  | .hbm, ⟨15, _⟩ => ⟨S1250000, .i32⟩
  | .hbm, ⟨16, _⟩ => ⟨S1250000, .i32⟩
  | .hbm, ⟨17, _⟩ => ⟨S1250000x1, .i32⟩
  | .hbm, ⟨18, _⟩ => ⟨S1250000x64, .f32⟩
  | .hbm, ⟨19, _⟩ => ⟨S_, .f32⟩
  | .hbm, ⟨20, _⟩ => ⟨S100000x64, .f32⟩
  | .hbm, ⟨21, _⟩ => ⟨S1250000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.PerceptronRow.lean ====
/-
  The mathematics both programs compute, stated once with no program in sight.

  A node's feature row `h` (64 extended reals) goes through a two-layer perceptron:
      hiddenUnit k = max (∑ j, h j · W1[j, k] + b1[k]) 0            (linear, then ReLU)
      out q        = ∑ k, hiddenUnit k · W2[k, q] + b2[q]        (linear)
  and the graph layer feeds it the row `h = x[r, ·] + agg[r, ·]`, the node's own features plus the sum of its
  in-neighbours' features. Everything is over the extended reals; the zero the ReLU compares against is kept as the
  float word it is printed as, the same word on both sides, never evaluated.
-/
import Idealize.ShloMosaic.PureOps.Ideal
import Idealize.ShloMosaic.Lib.ValueIdx

noncomputable section

open scoped BigOperators

namespace Cert.GinLayer

open Idealize.ShloMosaic Idealize.ShloMosaic.ValueIdx

/-- A 64 × 64 weight matrix and a length-64 bias, as arrays of extended reals. -/
abbrev Weights : Type := (⟨2, ![64, 64]⟩ : Shape).Idx → EReal
abbrev Bias : Type := (⟨1, ![64]⟩ : Shape).Idx → EReal
/-- The node-feature array: 100000 nodes, 64 features each. -/
abbrev Nodes : Type := (⟨2, ![100000, 64]⟩ : Shape).Idx → EReal

/-- Hidden unit `k` of the perceptron on the row `h`: the first linear layer, then ReLU. -/
def hiddenUnit (h : Fin 64 → EReal) (W1 : Weights) (b1 : Bias) (k : Fin 64) : EReal :=
  max ((∑ j : Fin 64, h j * W1 (ix2 j k)) + b1 (ix1 k)) (Ideal.ofBits .f32 0x00000000#32)

/-- Output feature `q` of the perceptron on the row `h`: the second linear layer over the hidden units. -/
def rowOut (h : Fin 64 → EReal) (W1 : Weights) (b1 : Bias) (W2 : Weights) (b2 : Bias) (q : Fin 64) : EReal :=
  (∑ k : Fin 64, hiddenUnit h W1 b1 k * W2 (ix2 k q)) + b2 (ix1 q)

/-- The layer's result array: entry `(r, q)` is the perceptron's output `q` on node `r`'s row `x[r, ·] + agg[r, ·]`. -/
def layerOut (x agg : Nodes) (W1 : Weights) (b1 : Bias) (W2 : Weights) (b2 : Bias) : Nodes :=
  fun i => rowOut (fun j => x (ix2 (i 0) j) + agg (ix2 (i 0) j)) W1 b1 W2 b2 (i 1)

/-- The result at a node and a feature given by coordinates. -/
theorem layerOut_ix2 (x agg : Nodes) (W1 : Weights) (b1 : Bias) (W2 : Weights) (b2 : Bias) (r : Fin 100000) (q : Fin 64) :
    layerOut x agg W1 b1 W2 b2 (ix2 r q) = rowOut (fun j => x (ix2 r j) + agg (ix2 r j)) W1 b1 W2 b2 q := rfl

end Cert.GinLayer

end
-- ==== Proof.BlockPayload.lean ====
/-
  What the kernel's body stores, read at one entry of a 5000-row block.

  The body adds the aggregate block to the feature block, multiplies by W1 on the matrix unit into a zero accumulator,
  adds the bias row, clamps at zero, multiplies by W2 into a zero accumulator and adds the second bias row. Over the
  extended reals the two narrowings to bfloat16 are the identity and a product into a zero accumulator is the plain
  sum over the contracted axis, so entry (p, q) of what is stored is the perceptron's output q on row p of the sum
  of the two blocks: `GinLayer.rowOut`.
-/
import proofs.«112064_j58437325029516_1_alg».proof.Proof.Gen.KernelIdeal.Skeleton
import proofs.«112064_j58437325029516_1_alg».proof.Proof.PerceptronRow
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.GinLayer

/-! ## The matrix unit's product of a 5000 × 64 block with a 64 × 64 matrix, at an entry -/

/-- The block product's dimension numbers: rows × (contracted 64) times (contracted 64) × columns. -/
abbrev blockDot : DotDims S5000x64 S64x64 S5000x64 := dot_S5000x64_S64x64_S5000x64_1_0_0_1_n_n

/-- The left operand is read at the output's row … -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contracted coordinate as its column; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted coordinate as its row … -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into a zero accumulator, entry (p, c) of the block product is the sum over k of L[p, k] · R[k, c]. -/
theorem matmul_zero_apply {φ₁ φ₂ : FTy} (L : FVec Ideal S5000x64 φ₁) (R : FVec Ideal S64x64 φ₂) (p : Fin 5000) (c : Fin 64) :
    matmul (F := Ideal) dot_S5000x64_S64x64_S5000x64_1_0_0_1_n_n none L R (constant (F := Ideal) S5000x64 .f32 0x00000000#32) (ix2 p c)
      = ∑ k : Fin 64, L (ix2 p k) * R (ix2 k c) := by
  show FloatOps.matmul dot_S5000x64_S64x64_S5000x64_1_0_0_1_n_n none L R (constant (F := Ideal) S5000x64 .f32 0x00000000#32) (ix2 p c) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p c) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p c) ((ValueIdx.contrEquiv1 dot_S5000x64_S64x64_S5000x64_1_0_0_1_n_n 64 rfl rfl).symm k) = ix2 k c := funext fun a => Fin.ext (by
    match a with
    | ⟨0, _⟩ => exact (rhs_row _ _).trans hk
    | ⟨1, _⟩ => exact rhs_col _ _)
  rw [el, er]

/-! ## A bias vector laid out as one row and repeated down the block -/

/-- Entry (p, c) of the bias, cast to one row and broadcast over the 5000 rows, is the bias's entry c. -/
theorem biasRows_apply (b : FVec Ideal S64 .f32) (p : Fin 5000) (c : Fin 64) :
    broadcastTo S5000x64 (shapeCast S1x64 b shapeCasts_S64_S1x64) broadcasts_S1x64_S5000x64 (ix2 p c) = b (ix1 c) :=
  (broadcastTo_1b_ab_apply (shapeCast S1x64 b shapeCasts_S64_S1x64) broadcasts_S1x64_S5000x64 p c).trans
    (shapeCast_a_1a_apply b shapeCasts_S64_S1x64 (0 : Fin 1) c)

/-! ## The stored block at an entry -/

/-- Entry (p, q) of the block the body stores is the perceptron's output q on row p of `x + agg`. -/
theorem stored_apply (x agg : FVec Ideal S5000x64 .f32) (W1 : FVec Ideal S64x64 .f32) (b1 : FVec Ideal S64 .f32)
    (W2 : FVec Ideal S64x64 .f32) (b2 : FVec Ideal S64 .f32) (p : Fin 5000) (q : Fin 64) :
    k0_pay1 (F := Ideal) x agg W1 b1 W2 b2 (ix2 p q) = rowOut (fun j => x (ix2 p j) + agg (ix2 p j)) W1 b1 W2 b2 q := by
  unfold k0_pay1
  have hself : shapeCast S5000x64 agg shapeCasts_S5000x64_S5000x64 = agg := shapeCast_self agg _
  refine (congrArg₂ (· + ·) (matmul_zero_apply _ _ p q) (biasRows_apply b2 p q)).trans ?_
  unfold rowOut
  refine congrArg (· + b2 (ix1 q)) (Finset.sum_congr rfl fun k _ => congrArg (· * W2 (ix2 k q)) ?_)
  unfold hiddenUnit
  refine (congrArg₂ max (congrArg₂ (· + ·) (matmul_zero_apply _ _ p k) (biasRows_apply b1 p k)) rfl).trans ?_
  refine congrArg₂ max (congrArg (· + b1 (ix1 k)) (Finset.sum_congr rfl fun j _ => congrArg (· * W1 (ix2 j k)) ?_)) rfl
  show x (ix2 p j) + shapeCast S5000x64 agg shapeCasts_S5000x64_S5000x64 (ix2 p j) = _
  rw [hself]

end Cert.KernelIdeal.BlockValue

end
-- ==== Proof.BlockOfLayer.lean ====
/-
  One grid point's work, over ARBITRARY arrays.

  Grid point `t` stages rows 5000·t … 5000·t + 4999 of its first two operands and its four small operands whole, and
  stores the perceptron applied row by row (`BlockValue.stored_apply`). A row of a block is a row of the array, so for
  any feature array X, any aggregate array A and any weights and biases, what the point leaves in the result window
  is block `t` of the layer's specification `GinLayer.layerOut X A W1 b1 W2 b2`. The 20 blocks cover the result array:
  node `r` lies in the block of point `r / 5000`.

  The arrays are variables here on purpose: the aggregate the kernel really stages is a scatter-add over 1250000
  edges, and nothing in this argument looks inside it.
-/
import proofs.«112064_j58437325029516_1_alg».proof.Proof.Gen.KernelIdeal.Frame
import proofs.«112064_j58437325029516_1_alg».proof.Proof.BlockPayload

set_option maxRecDepth 16384

noncomputable section

namespace Cert.KernelIdeal.BlockOfLayer

open Cert.KernelIdeal Cert.KernelIdeal.Gen Idealize.ShloMosaic Idealize.ShloMosaic.TcCoe Idealize.SL.Sem
open Idealize.ShloMosaic.ValueIdx Cert.GinLayer

/-! ## Where each window's block sits -/

theorem origin2 : (![0, 0] : Fin 2 → Nat) = fun _ => 0 := funext fun a => by fin_cases a <;> rfl
theorem origin1 : (![0] : Fin 1 → Nat) = fun _ => 0 := funext fun a => by fin_cases a <;> rfl

/-- The printed index maps, decided over the 20 grid points: the feature, aggregate and result windows take block
    row `t` (and the one block column), the weights and biases their one block. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of point `t`'s block is node 5000·t + p. -/
def nodeOf (t : Fin cfg0.N) (p : Fin 5000) : Fin 100000 :=
  ⟨t.val * 5000 + p.val, by have hN : grid0.N = 20 := N_0; have ht : t.val < grid0.N := t.isLt; have := p.isLt; omega⟩

/-! ## The six input blocks of a point, each with its literal type -/

abbrev NodeArr : Type := (⟨S100000x64, .f32⟩ : BufTy).Contents (Elt Ideal)
abbrev WeightArr : Type := (⟨S64x64, .f32⟩ : BufTy).Contents (Elt Ideal)
abbrev BiasArr : Type := (⟨S64, .f32⟩ : BufTy).Contents (Elt Ideal)

/-- The 5000 rows of X that point `t` stages through the feature window … -/
abbrev featureRows (X : NodeArr) (t : Fin cfg0.N) : FVec Ideal S5000x64 .f32 := ((cfg0.win 0).blk t).view.read (Elt Ideal) X
/-- … and of A through the aggregate window; -/
abbrev aggregateRows (A : NodeArr) (t : Fin cfg0.N) : FVec Ideal S5000x64 .f32 := ((cfg0.win 1).blk t).view.read (Elt Ideal) A
/-- the four small operands as their windows stage them. -/
abbrev firstWeights (W : WeightArr) (t : Fin cfg0.N) : FVec Ideal S64x64 .f32 := ((cfg0.win 2).blk t).view.read (Elt Ideal) W
abbrev firstBias (b : BiasArr) (t : Fin cfg0.N) : FVec Ideal S64 .f32 := ((cfg0.win 3).blk t).view.read (Elt Ideal) b
abbrev secondWeights (W : WeightArr) (t : Fin cfg0.N) : FVec Ideal S64x64 .f32 := ((cfg0.win 4).blk t).view.read (Elt Ideal) W
abbrev secondBias (b : BiasArr) (t : Fin cfg0.N) : FVec Ideal S64 .f32 := ((cfg0.win 5).blk t).view.read (Elt Ideal) b

/-- Row `p` of the feature block at point `t` is row `nodeOf t p` of the array. -/
theorem featureRows_apply (X : NodeArr) (t : Fin cfg0.N) (p : Fin 5000) (j : Fin 64) :
    featureRows X t (ix2 p j) = X (ix2 (nodeOf t p) j) := by
  obtain ⟨e00, e01, -⟩ := block_positions t
  show X (((cfg0.win 0).blk t).view.emb (ix2 p j)) = X (ix2 (nodeOf t p) j)
  refine congrArg X (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * j.val = j.val; omega

/-- Row `p` of the aggregate block at point `t` is row `nodeOf t p` of the array. -/
theorem aggregateRows_apply (A : NodeArr) (t : Fin cfg0.N) (p : Fin 5000) (j : Fin 64) :
    aggregateRows A t (ix2 p j) = A (ix2 (nodeOf t p) j) := by
  obtain ⟨-, -, e10, e11, -⟩ := block_positions t
  show A (((cfg0.win 1).blk t).view.emb (ix2 p j)) = A (ix2 (nodeOf t p) j)
  refine congrArg A (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * j.val = j.val; omega

/-- The first weight matrix is staged whole at every point. -/
theorem firstWeights_eq (W : WeightArr) (t : Fin cfg0.N) : firstWeights W t = W := by
  obtain ⟨-, -, -, -, e20, e21, -⟩ := block_positions t
  funext y
  show W (((cfg0.win 2).blk t).view.emb y) = W y
  refine congrArg W (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- So is the first bias. -/
theorem firstBias_eq (b : BiasArr) (t : Fin cfg0.N) : firstBias b t = b := by
  obtain ⟨-, -, -, -, -, -, e3, -⟩ := block_positions t
  funext y
  show b (((cfg0.win 3).blk t).view.emb y) = b y
  refine congrArg b (funext fun a => Fin.ext ?_)
  match a with
  | ⟨0, _⟩ => show win0_3.index t (0 : Fin 1) * 64 + 1 * (y 0).val = (y 0).val; omega

/-- So is the second weight matrix. -/
theorem secondWeights_eq (W : WeightArr) (t : Fin cfg0.N) : secondWeights W t = W := by
  obtain ⟨-, -, -, -, -, -, -, e40, e41, -⟩ := block_positions t
  funext y
  show W (((cfg0.win 4).blk t).view.emb y) = W y
  refine congrArg W (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- And the second bias. -/
theorem secondBias_eq (b : BiasArr) (t : Fin cfg0.N) : secondBias b t = b := by
  obtain ⟨-, -, -, -, -, -, -, -, -, e5, -⟩ := block_positions t
  funext y
  show b (((cfg0.win 5).blk t).view.emb y) = b y
  refine congrArg b (funext fun a => Fin.ext ?_)
  match a with
  | ⟨0, _⟩ => show win0_5.index t (0 : Fin 1) * 64 + 1 * (y 0).val = (y 0).val; omega

/-! ## What a point leaves in the result window -/

/-- What the body stores from point `t`'s six input blocks, read through the result window, is block `t` of the
    layer's specification of the six arrays. -/
theorem block_eq (X A : NodeArr) (W1 : WeightArr) (b1 : BiasArr) (W2 : WeightArr) (b2 : BiasArr) (t : Fin cfg0.N) :
    (cfg0.win 6).cut (grid0.coords t)
        (out0_6 (featureRows X t) (aggregateRows A t) (firstWeights W1 t) (firstBias b1 t) (secondWeights W2 t) (secondBias b2 t))
      = ((cfg0.win 6).blk t).view.read (Elt Ideal) (layerOut X A W1 b1 W2 b2) := by
  unfold out0_6
  rw [View.canon_unit_zero origin2]
  simp only [View.ld_unit_zero (S := S5000x64) origin2, View.ld_unit_zero (S := S64x64) origin2, View.ld_unit_zero (S := S64) origin1]
  obtain ⟨-, -, -, -, -, -, -, -, -, -, e60, e61⟩ := block_positions t
  funext y
  obtain ⟨p, q, rfl⟩ : ∃ (p : Fin 5000) (q : Fin 64), y = ix2 p q := ⟨y 0, y 1, eq_ix2 y⟩
  show k0_pay1 (F := Ideal) (featureRows X t) (aggregateRows A t) (firstWeights W1 t) (firstBias b1 t) (secondWeights W2 t) (secondBias b2 t) (ix2 p q)
    = layerOut X A W1 b1 W2 b2 (((cfg0.win 6).blk t).view.emb (ix2 p q))
  have hrow : ((cfg0.win 6).blk t).view.emb (ix2 p q) = ix2 (nodeOf t p) q := funext fun a => Fin.ext (by
    match a with
    | ⟨0, _⟩ => show win0_6.index t (0 : Fin 2) * 5000 + 1 * p.val = t.val * 5000 + p.val; omega
    | ⟨1, _⟩ => show win0_6.index t (1 : Fin 2) * 64 + 1 * q.val = q.val; omega)
  rw [hrow, layerOut_ix2]
  refine (BlockValue.stored_apply (featureRows X t) (aggregateRows A t) (firstWeights W1 t) (firstBias b1 t) (secondWeights W2 t) (secondBias b2 t) p q).trans ?_
  have hrows : (fun j : Fin 64 => featureRows X t (ix2 p j) + aggregateRows A t (ix2 p j))
      = fun j => X (ix2 (nodeOf t p) j) + A (ix2 (nodeOf t p) j) :=
    funext fun j => by rw [featureRows_apply, aggregateRows_apply]
  rw [hrows, firstWeights_eq, firstBias_eq, secondWeights_eq, secondBias_eq]

/-! ## The blocks cover the array -/

/-- An index of the array is in point `t`'s block iff each coordinate is in the block's range on its axis. -/
theorem mem_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v14).slice (win0_6.rect t)).set ↔ _
  rw [View.set_slice_whole, Rect.mem_set_unit]
  exact Iff.rfl

/-- Every entry of the array is in the block of the point its node's row falls in. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : grid0.N = 20 := N_0
  have ht : (i 0).val / 5000 < cfg0.N := by show (i 0).val / 5000 < grid0.N; omega
  obtain ⟨-, -, -, -, -, -, -, -, -, -, e60, e61⟩ := block_positions ⟨(i 0).val / 5000, ht⟩
  refine ⟨⟨(i 0).val / 5000, ht⟩, flush0_6 _, ?_⟩
  rw [mem_block]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    omega

end Cert.KernelIdeal.BlockOfLayer

end
-- ==== Proof.AggregateAtEntry.lean ====
/-
  What the kernel's second operand holds when the region is entered.

  Before the one kernel region, the host part of the kernel's program computes the neighbour aggregate: it takes the
  source and destination rows of the edge list, wraps negative source ids by the node count, gathers the source
  nodes' feature rows, and scatter-adds them into a zero array at the destination ids. The aggregate window of the
  region stages that array. Here it is named as one function of the feature array and the edge list — the host
  operations composed, in the program's own words — and the gather and the scatter-add are never opened: the
  reference computes the aggregate by the very same operations, so the two only ever need to be compared as terms.
-/
import proofs.«112064_j58437325029516_1_alg».proof.Proof.Gen.KernelIdeal.Frame
import Idealize.ShloMosaic.Lib.StableHlo.Run

noncomputable section

namespace Cert.KernelIdeal.Aggregate

open Cert.KernelIdeal Cert.KernelIdeal.Gen Idealize.ShloMosaic Idealize.ShloMosaic.TcCoe Idealize.SL.Sem Idealize.ShloMosaic.StableHlo

variable {F : FTy → Type} [FloatOps F]

/-- The neighbour aggregate as the kernel's host part computes it from the features `x0` and the edge list `x1`:
    row `d` is the sum, over the edges that end at `d`, of the feature row of the edge's (wrapped) source. -/
def neighbourSum (x0 : (⟨S100000x64, .f32⟩ : BufTy).Contents (Elt F)) (x1 : (⟨S2x1250000, .i32⟩ : BufTy).Contents (Elt F)) :
    (⟨S100000x64, .f32⟩ : BufTy).Contents (Elt F) :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 (shapeCast _ (extractStridedSlice S1x1250000 ![1, 0] (x1) slices_S2x1250000_S1x1250000_1_0) shapeCasts_S1x1250000_S1250000)) (Host.gather gather_S100000x64_S1250000x1_S1250000x64_1_0_n_n_0_1_164 (x0) (broadcastInDim S1250000x1 ![0] bcast_S1250000_S1250000x1_0 (select (cmpi .slt (shapeCast _ (extractStridedSlice S1x1250000 ![0, 0] (x1) slices_S2x1250000_S1x1250000_0_0) shapeCasts_S1x1250000_S1250000) (broadcastInDim S1250000 ![] bcast_S_S1250000 (constantI S_ 32 0#32))) (addi (shapeCast _ (extractStridedSlice S1x1250000 ![0, 0] (x1) slices_S2x1250000_S1x1250000_0_0) shapeCasts_S1x1250000_S1250000) (broadcastInDim S1250000 ![] bcast_S_S1250000 (constantI S_ 32 100000#32))) (shapeCast _ (extractStridedSlice S1x1250000 ![0, 0] (x1) slices_S2x1250000_S1x1250000_0_0) shapeCasts_S1x1250000_S1250000))))

variable (m : (ℓ : Loc nD τ sig) → Buf (Elt F) ℓ)

/-- At region entry the aggregate window's array is the neighbour aggregate of the launch contents of the feature
    array and the edge list. -/
theorem entry_aggregate (c : Dev nD) :
    V m c main_v13 = neighbourSum (F := F) (m ((c : Thread nD τ).loc main_arg0)) (m ((c : Thread nD τ).loc main_arg1)) := by
  unfold neighbourSum
  dsimp only [Gen.V, Gen.hostOps0]
  after_results
  rfl

end Cert.KernelIdeal.Aggregate

end
-- ==== Proof.NodeBlocks.lean ====
/-
  From the 20 blocks of 5000 nodes to the whole result array, for the arrays the region really finds.

  Proof/BlockOfLayer.lean shows, for arbitrary arrays, that grid point `t` writes back block `t` of the layer's
  specification and that the 20 blocks cover the result array. Here the arrays are the ones the region finds at its
  entry: the features, weights and biases as launched, and the neighbour aggregate the host part has just computed
  (Proof/AggregateAtEntry.lean). So the result array after the run is the specification of those, and the kernel's
  run can be stated with its result named. The aggregate — a scatter-add over 1250000 edges — enters only as a whole
  array: which rows a block reads and which entries a point writes do not depend on what the array holds.
-/
import proofs.«112064_j58437325029516_1_alg».proof.Proof.Gen.KernelIdeal.Value
import proofs.«112064_j58437325029516_1_alg».proof.Proof.BlockOfLayer
import proofs.«112064_j58437325029516_1_alg».proof.Proof.AggregateAtEntry

set_option maxRecDepth 16384

noncomputable section

namespace Cert.KernelIdeal.ArrayValue

open Cert.KernelIdeal Cert.KernelIdeal.Gen Idealize.ShloMosaic Idealize.ShloMosaic.TcCoe Idealize.SL.Sem
open Cert.GinLayer
open Idealize.ShloMosaic.Pipeline (Dat)

variable (m : (ℓ : Loc nD τ sig) → Buf (Elt Ideal) ℓ) (ρ : Dev nD → PrngReg)

/-- The layer's specification of the arrays as the region finds them. -/
def spec (c : Dev nD) : BlockOfLayer.NodeArr :=
  layerOut (V m c main_arg0) (V m c main_v13) (V m c main_arg2) (V m c main_arg3) (V m c main_arg4) (V m c main_arg5)

/-- What point `t` writes back is block `t` of the specification. -/
theorem flushed_eq (c : Dev nD) (t : Fin cfg0.N) :
    (dats m 0 c).flushed 6 t = ((cfg0.win 6).blk t).view.read (Elt Ideal) (spec m c) :=
  (Value.flushed6 m c t).trans
    (BlockOfLayer.block_eq (V m c main_arg0) (V m c main_v13) (V m c main_arg2) (V m c main_arg3) (V m c main_arg4) (V m c main_arg5) t)

/-- After the run the result array is the specification of the arrays as the region finds them: the blocks cover it. -/
theorem final (c : Dev nD) : (dats m 0 c).arrAt 6 cfg0.N = spec m c :=
  (dats m 0 c).arrAt_eq_of_cover 6 (spec m c) (fun t _ => flushed_eq m c t) BlockOfLayer.covered

/-- In the launch contents of the arguments, that is the specification of the features, their neighbour aggregate,
    and the weights and biases. -/
theorem spec_launch (c : Dev nD) :
    spec m c = layerOut (m ((c : Thread nD τ).loc main_arg0))
      (Aggregate.neighbourSum (F := Ideal) (m ((c : Thread nD τ).loc main_arg0)) (m ((c : Thread nD τ).loc main_arg1)))
      (m ((c : Thread nD τ).loc main_arg2)) (m ((c : Thread nD τ).loc main_arg3))
      (m ((c : Thread nD τ).loc main_arg4)) (m ((c : Thread nD τ).loc main_arg5)) :=
  congr (congr (congr (congr (congr (congrArg layerOut (V_main_arg0 m c)) (Aggregate.entry_aggregate m c)) (V_main_arg2 m c))
    (V_main_arg3 m c)) (V_main_arg4 m c)) (V_main_arg5 m c)

/-- Every weakly fair execution of the kernel's program terminates with the result array at the specification of
    the launch contents, and the arguments unchanged. -/
theorem run : θ_run defs (onTc (τ := τ) (main (F := Ideal))) ⟨m, fun _ => 0, ρ⟩ fun r => ∀ c : Dev nD,
      r.2.mem ((c : Thread nD τ).loc main_v14) = layerOut (m ((c : Thread nD τ).loc main_arg0))
          (Aggregate.neighbourSum (F := Ideal) (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (spec_launch m c)), (h c).2⟩)
    (Value.run_blocks m ρ)

end Cert.KernelIdeal.ArrayValue

end
-- ==== Proof.ReferenceRow.lean ====
/-
  The reference's result, read at one entry of the whole 100000 × 64 array.

  The reference adds the aggregate to the features, takes two host matrix products with a bias and a clamp at zero
  between them. Read at entry (r, q) through the stage-by-stage lemmas, each host product is the sum over the
  contracted coordinate and each bias is read at its column, so the entry is the perceptron's output q on row r of
  `x + agg` — `GinLayer.rowOut` again — where `agg` is the scatter-add stage, which is never opened.
-/
import proofs.«112064_j58437325029516_1_alg».proof.Proof.Gen.ReferenceIdeal.Read
import proofs.«112064_j58437325029516_1_alg».proof.Proof.PerceptronRow

noncomputable section

open scoped BigOperators

namespace Cert.ReferenceIdeal.RefValue

open Cert.ReferenceIdeal Cert.ReferenceIdeal.Read Idealize.ShloMosaic Idealize.ShloMosaic.ValueIdx Cert.GinLayer

/-! ## Where each stage reads its operands, in coordinates -/

/-- The second product reads its left operand at (r, k) … -/
theorem second_lhs (r : Fin 100000) (q k : Fin 64) : lidx_main_v20 (ix2 r q) k = ix2 r k :=
  funext fun a => Fin.ext (by match a with | ⟨0, _⟩ => rfl | ⟨1, _⟩ => rfl)
/-- … and W2 at (k, q). -/
theorem second_rhs (r : Fin 100000) (q k : Fin 64) : ridx_main_v20 (ix2 r q) k = ix2 k q :=
  funext fun a => Fin.ext (by match a with | ⟨0, _⟩ => rfl | ⟨1, _⟩ => rfl)
/-- The first product reads its left operand at (r, j) … -/
theorem first_lhs (r : Fin 100000) (k j : Fin 64) : lidx_main_v15 (ix2 r k) j = ix2 r j :=
  funext fun a => Fin.ext (by match a with | ⟨0, _⟩ => rfl | ⟨1, _⟩ => rfl)
/-- … and W1 at (j, k). -/
theorem first_rhs (r : Fin 100000) (k j : Fin 64) : ridx_main_v15 (ix2 r k) j = ix2 j k :=
  funext fun a => Fin.ext (by match a with | ⟨0, _⟩ => rfl | ⟨1, _⟩ => rfl)
/-- The second bias, broadcast to a row and then over the nodes, is read at the column. -/
theorem second_bias (r : Fin 100000) (q : Fin 64) : idx_main_v21 (idx_main_v22 (ix2 r q)) = ix1 q :=
  funext fun a => Fin.ext (by match a with | ⟨0, _⟩ => rfl)
/-- So is the first. -/
theorem first_bias (r : Fin 100000) (k : Fin 64) : idx_main_v16 (idx_main_v17 (ix2 r k)) = ix1 k :=
  funext fun a => Fin.ext (by match a with | ⟨0, _⟩ => rfl)

/-! ## The hidden layer and the result at an entry -/

/-- Entry (r, k) of the clamped first layer is hidden unit k of the perceptron on row r of `x + agg`. -/
theorem hidden_apply (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal)) (r : Fin 100000) (k : Fin 64) :
    val_main_v19 (F := Ideal) x0 x1 x2 x3 (ix2 r k)
      = hiddenUnit (fun j => x0 (ix2 r j) + val_main_v13 (F := Ideal) x0 x1 (ix2 r j)) x2 x3 k := by
  rw [val_main_v19_apply, val_main_v18_apply, val_main_v15_apply, val_main_v17_apply, val_main_v16_apply, first_bias,
    val_main_call0_v0_apply, val_main_call0_cst_apply]
  unfold hiddenUnit
  refine congrArg₂ max (congrArg (· + x3 (ix1 k)) (Finset.sum_congr rfl fun j _ => ?_)) rfl
  rw [first_lhs, first_rhs, val_main_v14_apply]
  rfl

/-- Entry (r, q) of the reference's result is the perceptron's output q on row r of `x + agg`. -/
theorem result_apply (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) (r : Fin 100000) (q : Fin 64) :
    val_main_v23 (F := Ideal) x0 x1 x2 x3 x4 x5 (ix2 r q)
      = rowOut (fun j => x0 (ix2 r j) + val_main_v13 (F := Ideal) x0 x1 (ix2 r j)) x2 x3 x4 x5 q := by
  rw [val_main_v23_apply, val_main_v20_apply, val_main_v22_apply, val_main_v21_apply, second_bias]
  unfold rowOut
  refine congrArg (· + x5 (ix1 q)) (Finset.sum_congr rfl fun k _ => ?_)
  rw [second_lhs, second_rhs, hidden_apply]

/-- The whole result array is the layer's specification of the features and the scatter-add stage. -/
theorem result_eq (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    val_main_v23 (F := Ideal) x0 x1 x2 x3 x4 x5 = layerOut x0 (val_main_v13 (F := Ideal) x0 x1) x2 x3 x4 x5 := by
  funext i
  obtain ⟨r, q, rfl⟩ : ∃ (r : Fin 100000) (q : Fin 64), i = ix2 r q := ⟨i 0, i 1, eq_ix2 i⟩
  rw [result_apply, layerOut_ix2]

end Cert.ReferenceIdeal.RefValue

end
-- ==== Proof.lean ====
/-
  A graph-isomorphism-network layer: a Pallas kernel against its jnp reference, over the extended reals.

  Both programs compute, for 100000 nodes with 64 features and 1250000 edges,
      out = relu((x + agg) · W1 + b1) · W2 + b2,      agg[d, ·] = Σ over edges (s → d) of x[s, ·].
  Both build `agg` on the host by the same operations (a gather of the source rows, a scatter-add into zeros at the
  destinations), so the aggregate is one and the same term of the features and the edge list and is never opened
  (`neighbourSum_same`). The kernel then runs the perceptron in 20 blocks of 5000 nodes, narrowing to bfloat16 before
  each matrix product and accumulating from zero; the reference runs it on the whole array with two host products.
  Over the extended reals a narrowing is the identity and either product is the sum over the contracted axis, so
  each side's entry (r, q) is the perceptron's output q on row r of `x + agg`: the kernel's by the stored block at an
  entry and the blocks covering the array (Proof/BlockPayload.lean, Proof/NodeBlocks.lean), the reference's stage by
  stage (Proof/ReferenceRow.lean). No law that needs finiteness is used: the two sides are the same sums in the same
  order, so the precondition is never opened. The three frames are the generated ones; nothing was idealized away,
  so `preserves` has nothing to state.
-/
import proofs.«112064_j58437325029516_1_alg».proof.Defs
import proofs.«112064_j58437325029516_1_alg».proof.Proof.Gen.Kernel
import proofs.«112064_j58437325029516_1_alg».proof.Proof.Gen.Kernel.Skeleton
import proofs.«112064_j58437325029516_1_alg».proof.Proof.Gen.Kernel.Launch
import proofs.«112064_j58437325029516_1_alg».proof.Proof.Gen.Kernel.Points
import proofs.«112064_j58437325029516_1_alg».proof.Proof.Gen.Kernel.Frame
import proofs.«112064_j58437325029516_1_alg».proof.Proof.Gen.KernelIdeal
import proofs.«112064_j58437325029516_1_alg».proof.Proof.Gen.KernelIdeal.Skeleton
import proofs.«112064_j58437325029516_1_alg».proof.Proof.Gen.KernelIdeal.Launch
import proofs.«112064_j58437325029516_1_alg».proof.Proof.Gen.KernelIdeal.Points
import proofs.«112064_j58437325029516_1_alg».proof.Proof.Gen.KernelIdeal.Frame
import proofs.«112064_j58437325029516_1_alg».proof.Proof.Gen.ReferenceIdeal
import proofs.«112064_j58437325029516_1_alg».proof.Proof.Gen.Pre_finite_inputs
import proofs.«112064_j58437325029516_1_alg».proof.Proof.Gen.KernelIdeal.Value
import proofs.«112064_j58437325029516_1_alg».proof.Proof.Gen.ReferenceIdeal.Run
import proofs.«112064_j58437325029516_1_alg».proof.Proof.Gen.ReferenceIdeal.Read
import proofs.«112064_j58437325029516_1_alg».proof.Proof.NodeBlocks
import proofs.«112064_j58437325029516_1_alg».proof.Proof.ReferenceRow
import Idealize.ShloMosaic.Adequacy
import Idealize.ShloMosaic.Init

noncomputable section

namespace Cert.Proof

open Idealize.ShloMosaic Idealize.SL.Sem

/-- The kernel's host part and the reference compute the neighbour aggregate by the same operations with the same
    dimension numbers and constants: as functions of the features and the edge list they are one term. -/
theorem neighbourSum_same (x0 : (⟨Cert.KernelIdeal.S100000x64, .f32⟩ : BufTy).Contents (Elt Ideal))
    (x1 : (⟨Cert.KernelIdeal.S2x1250000, .i32⟩ : BufTy).Contents (Elt Ideal)) :
    Cert.KernelIdeal.Aggregate.neighbourSum (F := Ideal) x0 x1 = Cert.ReferenceIdeal.Read.val_main_v13 (F := Ideal) x0 x1 := rfl

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the result array at the layer's specification
    of the features, their neighbour aggregate, the weights and the biases. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v23_eq, Cert.ReferenceIdeal.RefValue.result_eq, h0, h1, h2, h3, h4, h5]
  exact congrArg (fun a => Cert.GinLayer.layerOut _ a _ _ _ _) (neighbourSum_same _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
